-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S10000 : Shape := ⟨1, ![10000]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S100000x128 .f32) (main_arg1 : IVec S2x640000 32) (main_arg2 : IVec S10000 32) (main_arg3 : FVec F S256x128 .f32) (main_arg4 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S10000 : Shape := ⟨1, ![10000]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S5000x128 : Shape := ⟨2, ![5000, 128]⟩
abbrev S5000x256 : Shape := ⟨2, ![5000, 256]⟩
abbrev S10000x1 : Shape := ⟨2, ![10000, 1]⟩
abbrev S10000x128 : Shape := ⟨2, ![10000, 128]⟩
abbrev S10000x256 : Shape := ⟨2, ![10000, 256]⟩
abbrev S2000x256 : Shape := ⟨2, ![2000, 256]⟩
abbrev S2000x128 : Shape := ⟨2, ![2000, 128]⟩

abbrev nBuf : Space → Nat
  | .hbm => 64
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S10000, .i32⟩
  | .hbm, ⟨3, _⟩ => ⟨S256x128, .f32⟩
  | .hbm, ⟨4, _⟩ => ⟨S256x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S10000, .i32⟩
  | .hbm, ⟨37, _⟩ => ⟨S10000, .i1⟩
  | .hbm, ⟨38, _⟩ => ⟨S_, .i32⟩
  | .hbm, ⟨39, _⟩ => ⟨S10000, .i32⟩
  | .hbm, ⟨40, _⟩ => ⟨S10000, .i32⟩
  | .hbm, ⟨41, _⟩ => ⟨S10000, .i32⟩
  | .hbm, ⟨42, _⟩ => ⟨S10000x1, .i32⟩
  | .hbm, ⟨43, _⟩ => ⟨S10000x128, .f32⟩
  | .hbm, ⟨44, _⟩ => ⟨S_, .i32⟩
  | .hbm, ⟨45, _⟩ => ⟨S10000, .i32⟩
  | .hbm, ⟨46, _⟩ => ⟨S10000, .i1⟩
  | .hbm, ⟨47, _⟩ => ⟨S_, .i32⟩
  | .hbm, ⟨48, _⟩ => ⟨S10000, .i32⟩
  | .hbm, ⟨49, _⟩ => ⟨S10000, .i32⟩
  | .hbm, ⟨50, _⟩ => ⟨S10000, .i32⟩
  | .hbm, ⟨51, _⟩ => ⟨S10000x1, .i32⟩
  | .hbm, ⟨52, _⟩ => ⟨S10000x128, .f32⟩
  | .hbm, ⟨53, _⟩ => ⟨S10000x256, .f32⟩
  | .hbm, ⟨54, _⟩ => ⟨S10000x128, .f32⟩
  | .hbm, ⟨55, _⟩ => ⟨S_, .i32⟩
  | .hbm, ⟨56, _⟩ => ⟨S10000, .i32⟩
  | .hbm, ⟨57, _⟩ => ⟨S10000, .i1⟩
  | .hbm, ⟨58, _⟩ => ⟨S_, .i32⟩
  | .hbm, ⟨59, _⟩ => ⟨S10000, .i32⟩
  | .hbm, ⟨60, _⟩ => ⟨S10000, .i32⟩
  | .hbm, ⟨61, _⟩ => ⟨S10000, .i32⟩
  | .hbm, ⟨62, _⟩ => ⟨S10000x1, .i32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S2000x256, .f32⟩
  | .local _ .vmem, ⟨8, _⟩ => ⟨S2000x256, .f32⟩
  | .local _ .vmem, ⟨9, _⟩ => ⟨S256x128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  bcast_S_S10000 : S_.BroadcastsInDim S10000 (![] : Fin 0 → Fin S10000.rank)
  bcast_S10000_S10000x1_0 : S10000.BroadcastsInDim S10000x1 (![0] : Fin 1 → Fin S10000x1.rank)
  concatenates_S10000x128_S10000x128_S10000x256_d1 : Shape.Concatenates [S10000x128, S10000x128] S10000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x128_S2000x128_0_0 : ∀ a, (![0, 0] : Fin 2 → Nat) a + S2000x128.size a ≤ S2000x128.size a
  h_S2000x128 : 0 < S2000x128.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x256_S256x128_S5000x128_1_0_0_1_n_n_wf : DotDims.WF S5000x256 S256x128 S5000x128 [1] [0] [0] [1] [] []
  gather_S100000x128_S10000x1_S10000x128_1_0_n_n_0_1_1128_wf : GatherDims.WF S100000x128 S10000x1 S10000x128 [1] [0] [] [0] [] 1 ![1, 128]
  dot_S2000x256_S256x128_S2000x128_1_0_0_1_n_n_wf : DotDims.WF S2000x256 S256x128 S2000x128 [1] [0] [0] [1] [] []
  scatter_S100000x128_S10000x1_S10000x128_1_0_0_1_wf : ScatterDims.WF S100000x128 S10000x1 S10000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000x128_S10000x1_S10000x128_1_0_0_1 : ScatterDims S100000x128 S10000x1 S10000x128 where
  updateWindowDims := [1]
  insertedWindowDims := [0]
  scatterDimsToOperandDims := [0]
  indexVectorDim := 1
  wf := scatter_S100000x128_S10000x1_S10000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S10000 : Shape := ⟨1, ![10000]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S10000x1 : Shape := ⟨2, ![10000, 1]⟩
abbrev S10000x256 : Shape := ⟨2, ![10000, 256]⟩
abbrev S10000x128 : Shape := ⟨2, ![10000, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S10000, .i32⟩
  | .hbm, ⟨3, _⟩ => ⟨S256x128, .f32⟩
  | .hbm, ⟨4, _⟩ => ⟨S256x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S100000x128, .f32⟩
  | .hbm, ⟨36, _⟩ => ⟨S_, .i32⟩
  | .hbm, ⟨37, _⟩ => ⟨S10000, .i32⟩
  | .hbm, ⟨38, _⟩ => ⟨S10000, .i1⟩
  | .hbm, ⟨39, _⟩ => ⟨S_, .i32⟩
  | .hbm, ⟨40, _⟩ => ⟨S10000, .i32⟩
  | .hbm, ⟨41, _⟩ => ⟨S10000, .i32⟩
  | .hbm, ⟨42, _⟩ => ⟨S10000, .i32⟩
  | .hbm, ⟨43, _⟩ => ⟨S10000x1, .i32⟩
  | .hbm, ⟨44, _⟩ => ⟨S10000x256, .f32⟩
  | .hbm, ⟨45, _⟩ => ⟨S10000x128, .f32⟩
  | .hbm, ⟨46, _⟩ => ⟨S_, .i32⟩
  | .hbm, ⟨47, _⟩ => ⟨S10000, .i32⟩
  | .hbm, ⟨48, _⟩ => ⟨S10000, .i1⟩
  | .hbm, ⟨49, _⟩ => ⟨S_, .i32⟩
  | .hbm, ⟨50, _⟩ => ⟨S10000, .i32⟩
  | .hbm, ⟨51, _⟩ => ⟨S10000, .i32⟩
  | .hbm, ⟨52, _⟩ => ⟨S10000, .i32⟩
  | .hbm, ⟨53, _⟩ => ⟨S10000x1, .i32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S10000 : S_.BroadcastsInDim S10000 (![] : Fin 0 → Fin S10000.rank)
  bcast_S10000_S10000x1_0 : S10000.BroadcastsInDim S10000x1 (![0] : Fin 1 → Fin S10000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x256_S256x128_S100000x128_1_0_0_1_n_n_wf : DotDims.WF S100000x256 S256x128 S100000x128 [1] [0] [0] [1] [] []
  gather_S100000x256_S10000x1_S10000x256_1_0_n_n_0_1_1256_wf : GatherDims.WF S100000x256 S10000x1 S10000x256 [1] [0] [] [0] [] 1 ![1, 256]
  dot_S10000x256_S256x128_S10000x128_1_0_0_1_n_n_wf : DotDims.WF S10000x256 S256x128 S10000x128 [1] [0] [0] [1] [] []
  scatter_S100000x128_S10000x1_S10000x128_1_0_0_1_wf : ScatterDims.WF S100000x128 S10000x1 S10000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x256_S10000x1_S10000x256_1_0_n_n_0_1_1256 : GatherDims S100000x256 S10000x1 S10000x256 where
  offsetDims := [1]
  collapsedSliceDims := [0]
  operandBatchingDims := []
  startIndicesBatchingDims := []
  startIndexMap := [0]
  indexVectorDim := 1
  sliceSizes := ![1, 256]
  wf := gather_S100000x256_S10000x1_S10000x256_1_0_n_n_0_1_1256_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000x128_S10000x1_S10000x128_1_0_0_1 : ScatterDims S100000x128 S10000x1 S10000x128 where
  updateWindowDims := [1]
  insertedWindowDims := [0]
  scatterDimsToOperandDims := [0]
  indexVectorDim := 1
  wf := scatter_S100000x128_S10000x1_S10000x128_1_0_0_1_wf

class Facts : Prop extends Facts₀ where

variable [Facts]
-- ==== Proof.LibRowsProduct.lean ====
/-
  Matrices held as functions of a two-coordinate index, at the exact-real instance.

  * Two matrices with the same rows set side by side (`besideCols`): what a concatenation along the column
    axis computes (`concatenate_cols`).
  * The product of an R×K matrix with a K×N matrix (`rowsProduct`): entry (r, j) is the sum over k of
    A(r, k) · B(k, j). It is what the vector unit's matrix product into the zero accumulator
    (`matmul_plain_zero`) and the host's dot_general (`dotGeneral_plain`) compute when the left operand's
    column axis is contracted against the right operand's row axis and there is no batch axis
    (`DotDims.plain`): over the extended reals neither rounds, so neither depends on an order of summation.
  * The rows of a matrix named by a list of signed words, each word clamped into the row range (`pickRows`):
    what a gather of whole rows computes (`gather_rows`). Picking rows commutes with setting matrices side by
    side (`pickRows_besideCols`).
-/
import Idealize.ShloMosaic.PureOps.Ideal.Laws
import Idealize.ShloMosaic.Lib.ValueIdx
import Idealize.ShloMosaic.Lib.Pipeline.Value

noncomputable section

namespace Cert.LibRowsProduct

open Idealize.ShloMosaic Idealize.ShloMosaic.ValueIdx

/-! ## Side by side -/

section Beside
variable {α : Type}

/-- `x` on the first `C₁` columns, `a` on the `C₂` after them. -/
def besideCols {R C₁ C₂ C : Nat} (hC : C₁ + C₂ = C) (x : (⟨2, ![R, C₁]⟩ : Shape).Idx → α)
    (a : (⟨2, ![R, C₂]⟩ : Shape).Idx → α) : (⟨2, ![R, C]⟩ : Shape).Idx → α :=
  fun j => if h : (j 1).val < C₁ then x (ix2 ⟨(j 0).val, idx2_lt0 j⟩ ⟨(j 1).val, h⟩)
    else a (ix2 ⟨(j 0).val, idx2_lt0 j⟩ ⟨(j 1).val - C₁, by have := idx2_lt1 j; omega⟩)

/-- A two-piece concatenation along the column axis is the two pieces side by side. -/
theorem concatenate_cols {R C₁ C₂ C : Nat} (hC : C₁ + C₂ = C) (x : (⟨2, ![R, C₁]⟩ : Shape).Idx → α)
    (a : (⟨2, ![R, C₂]⟩ : Shape).Idx → α)
    (h : Shape.Concatenates [(⟨2, ![R, C₁]⟩ : Shape), (⟨2, ![R, C₂]⟩ : Shape)] (⟨2, ![R, C]⟩ : Shape) 1) :
    concatenate (⟨2, ![R, C]⟩ : Shape) 1 [⟨(⟨2, ![R, C₁]⟩ : Shape), x⟩, ⟨(⟨2, ![R, C₂]⟩ : Shape), a⟩] h = besideCols hC x a := by
  funext j
  unfold besideCols
  split
  · exact concatenate_pair_apply_left _ x a h j rfl _
      (fun b => by match b with | ⟨0, _⟩ => rfl | ⟨1, _⟩ => rfl)
  · rename_i hge
    refine concatenate_pair_apply_right _ x a h j rfl rfl _
      (fun b hb => by
        match b, hb with
        | ⟨0, _⟩, _ => rfl
        | ⟨1, _⟩, hb => exact absurd rfl hb) ?_
    show (j 1).val - C₁ + C₁ = (j 1).val
    omega

end Beside

/-! ## Rows by columns -/

/-- Entry (r, j) of the product: the sum over k of `l (r, k) · r (k, j)`. -/
def rowsProduct {R K N : Nat} (l : (⟨2, ![R, K]⟩ : Shape).Idx → EReal) (r : (⟨2, ![K, N]⟩ : Shape).Idx → EReal) :
    (⟨2, ![R, N]⟩ : Shape).Idx → EReal :=
  fun i => ∑ k : Fin K, l (ix2 ⟨(i 0).val, idx2_lt0 i⟩ k) * r (ix2 k ⟨(i 1).val, idx2_lt1 i⟩)

/-- The left operand's row coordinate is the result's row coordinate. -/
private theorem plain_lhs_0 {R K N : Nat} (i : (⟨2, ![R, N]⟩ : Shape).Idx) (q : (DotDims.plain R K N).contr.Idx) :
    ((DotDims.plain R K N).lhsIdx i q 0).val = (i 0).val := by
  unfold DotDims.lhsIdx
  rw [dif_neg (show ¬(0 : Fin (⟨2, ![R, K]⟩ : Shape).rank) ∈ (DotDims.plain R K N).lhsBatch from List.not_mem_nil),
    dif_pos (show (0 : Fin (⟨2, ![R, K]⟩ : Shape).rank) ∈ (DotDims.plain R K N).lhsNonContracting from List.mem_singleton.mpr rfl)]
  rfl

/-- The left operand's column coordinate is the contraction position. -/
private theorem plain_lhs_1 {R K N : Nat} (i : (⟨2, ![R, N]⟩ : Shape).Idx) (q : (DotDims.plain R K N).contr.Idx) :
    ((DotDims.plain R K N).lhsIdx i q 1).val = (q ⟨0, Nat.one_pos⟩).val :=
  (DotDims.plain R K N).lhsIdx_val_of_single rfl i q

/-- The right operand's row coordinate is the contraction position. -/
private theorem plain_rhs_0 {R K N : Nat} (i : (⟨2, ![R, N]⟩ : Shape).Idx) (q : (DotDims.plain R K N).contr.Idx) :
    ((DotDims.plain R K N).rhsIdx i q 0).val = (q ⟨0, Nat.one_pos⟩).val :=
  (DotDims.plain R K N).rhsIdx_val_of_single rfl i q

/-- The right operand's column coordinate is the result's column coordinate. -/
private theorem plain_rhs_1 {R K N : Nat} (i : (⟨2, ![R, N]⟩ : Shape).Idx) (q : (DotDims.plain R K N).contr.Idx) :
    ((DotDims.plain R K N).rhsIdx i q 1).val = (i 1).val := by
  unfold DotDims.rhsIdx
  rw [dif_neg (show ¬(1 : Fin (⟨2, ![K, N]⟩ : Shape).rank) ∈ (DotDims.plain R K N).rhsBatch from List.not_mem_nil),
    dif_pos (show (1 : Fin (⟨2, ![K, N]⟩ : Shape).rank) ∈ (DotDims.plain R K N).rhsNonContracting from List.mem_singleton.mpr rfl)]
  rfl

/-- The sum over the one-axis contraction index set, re-indexed over the contraction extent, is the product's entry. -/
private theorem plain_sum {R K N : Nat} (l : (⟨2, ![R, K]⟩ : Shape).Idx → EReal) (r : (⟨2, ![K, N]⟩ : Shape).Idx → EReal)
    (i : (⟨2, ![R, N]⟩ : Shape).Idx) :
    ∑ q : (DotDims.plain R K N).contr.Idx, l ((DotDims.plain R K N).lhsIdx i q) * r ((DotDims.plain R K N).rhsIdx i q)
      = rowsProduct l r i := by
  rw [← Equiv.sum_comp (contrEquiv1 (DotDims.plain R K N) K rfl rfl).symm]
  unfold rowsProduct
  refine Finset.sum_congr rfl fun k _ => ?_
  have hk := contrEquiv1_symm_val (DotDims.plain R K N) K rfl rfl k
  have el : (DotDims.plain R K N).lhsIdx i ((contrEquiv1 (DotDims.plain R K N) K rfl rfl).symm k)
      = ix2 ⟨(i 0).val, idx2_lt0 i⟩ k := funext fun a => Fin.ext (by
    match a with
    | ⟨0, _⟩ => exact plain_lhs_0 _ _
    | ⟨1, _⟩ => exact (plain_lhs_1 _ _).trans hk)
  have er : (DotDims.plain R K N).rhsIdx i ((contrEquiv1 (DotDims.plain R K N) K rfl rfl).symm k)
      = ix2 k ⟨(i 1).val, idx2_lt1 i⟩ := funext fun a => Fin.ext (by
    match a with
    | ⟨0, _⟩ => exact (plain_rhs_0 _ _).trans hk
    | ⟨1, _⟩ => exact plain_rhs_1 _ _)
  rw [el, er]

/-- The vector unit's matrix product into the zero accumulator is the product. -/
theorem matmul_plain_zero {R K N : Nat} {φ₁ φ₂ : FTy} (prec : Option ContractPrecision)
    (l : FVec Ideal (⟨2, ![R, K]⟩ : Shape) φ₁) (r : FVec Ideal (⟨2, ![K, N]⟩ : Shape) φ₂) :
    FloatOps.matmul (DotDims.plain R K N) prec l r (constant (⟨2, ![R, N]⟩ : Shape) .f32 0x00000000#32) = rowsProduct l r := by
  funext i
  rw [Ideal.matmul_constant_zero_apply]
  exact plain_sum l r i

/-- The host's dot_general is the product. -/
theorem dotGeneral_plain {R K N : Nat} {φ₁ φ₂ : FTy} (prec : Option ContractPrecision)
    (l : FVec Ideal (⟨2, ![R, K]⟩ : Shape) φ₁) (r : FVec Ideal (⟨2, ![K, N]⟩ : Shape) φ₂) :
    Host.dotGeneral (DotDims.plain R K N) prec l r = rowsProduct l r := by
  funext i
  simp only [Host.dotGeneral]
  rw [Ideal.dotGeneral_apply]
  exact plain_sum l r i

/-! ## Picking rows -/

section Pick
variable {α : Type}

/-- The row a list entry names: its word read signed and clamped into `[0, R − 1]`. -/
def rowOf {R P w : Nat} (hR : 0 < R) (idx : IVec (⟨2, ![P, 1]⟩ : Shape) w) (p : Fin P) : Fin R :=
  ⟨min (idx (ix2 p 0)).toInt.toNat (R - 1), by omega⟩

/-- Row `p` of the result is row `rowOf idx p` of `x`. -/
def pickRows {R C P w : Nat} (hR : 0 < R) (x : (⟨2, ![R, C]⟩ : Shape).Idx → α) (idx : IVec (⟨2, ![P, 1]⟩ : Shape) w) :
    (⟨2, ![P, C]⟩ : Shape).Idx → α :=
  fun j => x (ix2 (rowOf hR idx ⟨(j 0).val, idx2_lt0 j⟩) ⟨(j 1).val, idx2_lt1 j⟩)

/-- The dimension numbers of a gather of whole rows of an R×C matrix at a P×1 list of row numbers. -/
abbrev rowsDims (R C P : Nat)
    (wf : GatherDims.WF (⟨2, ![R, C]⟩ : Shape) (⟨2, ![P, 1]⟩ : Shape) (⟨2, ![P, C]⟩ : Shape) [1] [0] [] [0] [] 1 ![1, C]) :
    GatherDims (⟨2, ![R, C]⟩ : Shape) (⟨2, ![P, 1]⟩ : Shape) (⟨2, ![P, C]⟩ : Shape) where
  offsetDims := [1]
  collapsedSliceDims := [0]
  operandBatchingDims := []
  startIndicesBatchingDims := []
  startIndexMap := [0]
  indexVectorDim := 1
  sliceSizes := ![1, C]
  wf := wf

/-- On the row axis the operand index is the clamped start index: the row axis is collapsed, so the offset is 0. -/
private theorem rows_operand_0 {R C P w : Nat} (hR : 0 < R)
    (wf : GatherDims.WF (⟨2, ![R, C]⟩ : Shape) (⟨2, ![P, 1]⟩ : Shape) (⟨2, ![P, C]⟩ : Shape) [1] [0] [] [0] [] 1 ![1, C])
    (idx : IVec (⟨2, ![P, 1]⟩ : Shape) w) (j : (⟨2, ![P, C]⟩ : Shape).Idx) :
    ((rowsDims R C P wf).operandIdx j idx 0).val = (rowOf hR idx ⟨(j 0).val, idx2_lt0 j⟩).val := by
  show (rowsDims R C P wf).start j idx 0 + (rowsDims R C P wf).batchCoord j 0 + (rowsDims R C P wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims R C P wf).startIndexMap from List.mem_singleton.mpr rfl)]
  have hsi : (rowsDims R C P wf).siIdx j ⟨List.idxOf (0 : Fin 2) (rowsDims R C P wf).startIndexMap,
      List.idxOf_lt_length_iff.2 (List.mem_singleton.mpr rfl)⟩ = ix2 ⟨(j 0).val, idx2_lt0 j⟩ 0 := by
    funext b; refine Fin.ext ?_
    match b with
    | ⟨0, _⟩ => rfl
    | ⟨1, _⟩ => rfl
  rw [hsi]
  rfl

/-- On the column axis the start is 0 (the start index map does not name it) and the offset is the result's column. -/
private theorem rows_operand_1 {R C P w : Nat}
    (wf : GatherDims.WF (⟨2, ![R, C]⟩ : Shape) (⟨2, ![P, 1]⟩ : Shape) (⟨2, ![P, C]⟩ : Shape) [1] [0] [] [0] [] 1 ![1, C])
    (idx : IVec (⟨2, ![P, 1]⟩ : Shape) w) (j : (⟨2, ![P, C]⟩ : Shape).Idx) :
    ((rowsDims R C P wf).operandIdx j idx 1).val = (j 1).val := by
  show (rowsDims R C P wf).start j idx 1 + (rowsDims R C P wf).batchCoord j 1 + (rowsDims R C P wf).offCoord j 1 = _
  rw [GatherDims.batchCoord_eq_zero _ _ _ List.not_mem_nil]
  unfold GatherDims.start
  rw [dif_neg (show ¬(1 : Fin 2) ∈ (rowsDims R C P wf).startIndexMap from
    fun h => absurd (List.mem_singleton.mp h) (show ¬(1 : Fin 2) = 0 by decide))]
  unfold GatherDims.offCoord
  rw [dif_pos (show (1 : Fin 2) ∈ (rowsDims R C P wf).sKept from
    (GatherDims.mem_sKept _ _).mpr ⟨fun h => absurd (List.mem_singleton.mp h) (show ¬(1 : Fin 2) = 0 by decide), List.not_mem_nil⟩)]
  simp only [Nat.add_zero, Nat.zero_add]
  rfl

/-- A gather of whole rows picks the rows. -/
theorem gather_rows {R C P w : Nat} (hR : 0 < R)
    (wf : GatherDims.WF (⟨2, ![R, C]⟩ : Shape) (⟨2, ![P, 1]⟩ : Shape) (⟨2, ![P, C]⟩ : Shape) [1] [0] [] [0] [] 1 ![1, C])
    (x : (⟨2, ![R, C]⟩ : Shape).Idx → α) (idx : IVec (⟨2, ![P, 1]⟩ : Shape) w) :
    Host.gather (rowsDims R C P wf) x idx = pickRows hR x idx := by
  funext j
  unfold Host.gather pickRows
  congr 1
  funext a
  refine Fin.ext ?_
  match a with
  | ⟨0, _⟩ => exact rows_operand_0 hR wf idx j
  | ⟨1, _⟩ => exact rows_operand_1 wf idx j

/-- Picking rows of two matrices set side by side picks the rows of each. -/
theorem pickRows_besideCols {R C₁ C₂ C P w : Nat} (hR : 0 < R) (hC : C₁ + C₂ = C) (x : (⟨2, ![R, C₁]⟩ : Shape).Idx → α)
    (a : (⟨2, ![R, C₂]⟩ : Shape).Idx → α) (idx : IVec (⟨2, ![P, 1]⟩ : Shape) w) :
    pickRows hR (besideCols hC x a) idx = besideCols hC (pickRows hR x idx) (pickRows hR a idx) := by
  funext j
  unfold pickRows besideCols
  by_cases h : (j 1).val < C₁
  · rw [dif_pos h, dif_pos (show ((ix2 (rowOf hR idx ⟨(j 0).val, idx2_lt0 j⟩) (⟨(j 1).val, idx2_lt1 j⟩ : Fin C)) 1).val < C₁ from h)]
    rfl
  · rw [dif_neg h, dif_neg (show ¬((ix2 (rowOf hR idx ⟨(j 0).val, idx2_lt0 j⟩) (⟨(j 1).val, idx2_lt1 j⟩ : Fin C)) 1).val < C₁ from h)]
    rfl

end Pick

end Cert.LibRowsProduct

end
-- ==== Proof.LibRowBlocks.lean ====
/-
  Blocks of consecutive rows. Block `b` of height `T` of a matrix is its rows `b·T, …, b·T + T − 1`
  (`rowBlock`). Taking a row block commutes with setting two matrices side by side
  (`rowBlock_besideCols`), and a row block of a product is the product of the left factor's row block with the
  whole right factor (`rowBlock_rowsProduct`): entry (r, j) of a product reads only row r of the left factor.
  So a product computed block of rows by block of rows is the product.
-/
import proofs.«113289_j36000415875687_1_alg».proof.Proof.LibRowsProduct

noncomputable section

namespace Cert.LibRowsProduct

open Idealize.ShloMosaic Idealize.ShloMosaic.ValueIdx

section
variable {α : Type}

/-- Rows `b·T + 0, …, b·T + (T − 1)` of `X`. -/
def rowBlock {R C : Nat} (T b : Nat) (hb : b * T + T ≤ R) (X : (⟨2, ![R, C]⟩ : Shape).Idx → α) :
    (⟨2, ![T, C]⟩ : Shape).Idx → α :=
  fun y => X (ix2 ⟨b * T + (y 0).val, by have := idx2_lt0 y; omega⟩ ⟨(y 1).val, idx2_lt1 y⟩)

/-- `besideCols` at an index named by its coordinates, on the first piece's columns. -/
theorem besideCols_ix2_left {R C₁ C₂ C : Nat} (hC : C₁ + C₂ = C) (x : (⟨2, ![R, C₁]⟩ : Shape).Idx → α)
    (a : (⟨2, ![R, C₂]⟩ : Shape).Idx → α) (p : Fin R) (k : Fin C) (h : k.val < C₁) :
    besideCols hC x a (ix2 p k) = x (ix2 p ⟨k.val, h⟩) := by
  unfold besideCols
  exact dif_pos h

/-- `besideCols` at an index named by its coordinates, on the second piece's columns. -/
theorem besideCols_ix2_right {R C₁ C₂ C : Nat} (hC : C₁ + C₂ = C) (x : (⟨2, ![R, C₁]⟩ : Shape).Idx → α)
    (a : (⟨2, ![R, C₂]⟩ : Shape).Idx → α) (p : Fin R) (k : Fin C) (h : ¬ k.val < C₁) :
    besideCols hC x a (ix2 p k) = a (ix2 p ⟨k.val - C₁, by have := k.isLt; omega⟩) := by
  unfold besideCols
  exact dif_neg h

/-- A row block of two matrices side by side is their row blocks side by side. -/
theorem rowBlock_besideCols {R C₁ C₂ C : Nat} (hC : C₁ + C₂ = C) (T b : Nat) (hb : b * T + T ≤ R)
    (x : (⟨2, ![R, C₁]⟩ : Shape).Idx → α) (a : (⟨2, ![R, C₂]⟩ : Shape).Idx → α) :
    rowBlock T b hb (besideCols hC x a) = besideCols hC (rowBlock T b hb x) (rowBlock T b hb a) := by
  funext y
  by_cases h : (y 1).val < C₁
  · have e1 := besideCols_ix2_left hC x a ⟨b * T + (y 0).val, by have := idx2_lt0 y; omega⟩ ⟨(y 1).val, idx2_lt1 y⟩ h
    have e2 : besideCols hC (rowBlock T b hb x) (rowBlock T b hb a) y
        = rowBlock T b hb x (ix2 ⟨(y 0).val, idx2_lt0 y⟩ ⟨(y 1).val, h⟩) := by
      unfold besideCols; exact dif_pos h
    exact e1.trans e2.symm
  · have e1 := besideCols_ix2_right hC x a ⟨b * T + (y 0).val, by have := idx2_lt0 y; omega⟩ ⟨(y 1).val, idx2_lt1 y⟩ h
    have e2 : besideCols hC (rowBlock T b hb x) (rowBlock T b hb a) y
        = rowBlock T b hb a (ix2 ⟨(y 0).val, idx2_lt0 y⟩ ⟨(y 1).val - C₁, by have := idx2_lt1 y; omega⟩) := by
      unfold besideCols; exact dif_neg h
    exact e1.trans e2.symm

end

/-- A row block of a product is the product of the left factor's row block with the right factor. -/
theorem rowBlock_rowsProduct {R K N : Nat} (T b : Nat) (hb : b * T + T ≤ R)
    (l : (⟨2, ![R, K]⟩ : Shape).Idx → EReal) (r : (⟨2, ![K, N]⟩ : Shape).Idx → EReal) :
    rowBlock T b hb (rowsProduct l r) = rowsProduct (rowBlock T b hb l) r := by
  funext y
  rfl

end Cert.LibRowsProduct

end
-- ==== Proof.MainProduct.lean ====
/-
  What the first region leaves in its output array. Grid point `t` loads rows `5000·t, …, 5000·t + 4999` of the
  node features and of the aggregated features, and the whole 256×128 weight; it sets the two row blocks side by
  side, multiplies by the weight (the change of float format before the product is the identity over the extended
  reals, and the product into the zero accumulator is the plain sum over the 256 columns) and writes the 5000×128
  result back as row block `t` of the output. A row block of a product is the product of the row block, and the
  twenty row blocks tile the 100000 rows, so the output array ends holding `[x ‖ aggr] · W`, whatever the buffers
  held when the region was entered.
-/
import proofs.«113289_j36000415875687_1_alg».proof.Proof.Gen.KernelIdeal.Frame
import proofs.«113289_j36000415875687_1_alg».proof.Proof.LibRowsProduct
import proofs.«113289_j36000415875687_1_alg».proof.Proof.LibRowBlocks
import Idealize.ShloMosaic.Lib.Pipeline.Value
import Idealize.ShloMosaic.Lib.ValueIdx
import Idealize.ShloMosaic.PureOps.Ideal.Laws

set_option maxRecDepth 16384

noncomputable section

namespace Cert.KernelIdeal.MainProduct

open Cert.KernelIdeal Cert.KernelIdeal.Gen Cert.LibRowsProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value: the two loaded row blocks side by side, times the loaded weight. -/
theorem pay_eq (x0 x1 : Vec Ideal S5000x128 .f32) (w : Vec Ideal S256x128 .f32) :
    k0_pay1 (F := Ideal) x0 x1 w = rowsProduct (besideCols (rfl : 128 + 128 = 256) x0 x1) w := by
  unfold k0_pay1
  show FloatOps.matmul (F := Ideal) (φ₁ := .bf16) (φ₂ := .bf16) (DotDims.plain 5000 256 128) none
      (concatenate S5000x256 1 [⟨S5000x128, x0⟩, ⟨S5000x128, shapeCast S5000x128 x1 shapeCasts_S5000x128_S5000x128⟩]
        concatenates_S5000x128_S5000x128_S5000x256_d1)
      w (constant (⟨2, ![5000, 128]⟩ : Shape) .f32 0x00000000#32) = _
  rw [shapeCast_self, matmul_plain_zero, concatenate_cols (rfl : 128 + 128 = 256)]

/-- Where each window's block sits at point `t`: the two feature windows and the output move together down the rows,
    the weight window stays, and no window moves along the columns. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 19 :=
  (by decide +kernel : ∀ t : Fin grid0.N, _)

/-- Every row block is some point's. -/
theorem idx_onto : ∀ q : Fin 20, ∃ t : Fin cfg0.N, win0_3.index t = ![q.val, 0] :=
  (by decide +kernel : ∀ q : Fin 20, ∃ t : Fin grid0.N, win0_3.index t = ![q.val, 0])

theorem blk_le (t : Fin cfg0.N) : win0_3.index t (0 : Fin 2) * 5000 + 5000 ≤ 100000 := by
  obtain ⟨-, -, -, -, -, -, -, e7⟩ := idx_facts t
  omega

/-- The node-feature window's block at point `t` is row block `t` of its array. -/
theorem blk0_eq (c : Dev nD) (t : Fin cfg0.N) :
    (iblk0 V c 0 t : S5000x128.Idx → EReal) = rowBlock 5000 (win0_3.index t (0 : Fin 2)) (blk_le t) (V c main_arg0) := by
  obtain ⟨e0, e1, e2, e3, e4, e5, e6, e7⟩ := idx_facts t
  funext y
  show V c main_arg0 (((cfg0.win 0).blk t).view.emb y)
    = V c main_arg0 (ix2 ⟨win0_3.index t (0 : Fin 2) * 5000 + (y 0).val, _⟩ ⟨(y 1).val, idx2_lt1 y⟩)
  have h : ((cfg0.win 0).blk t).view.emb y
      = ix2 ⟨win0_3.index t (0 : Fin 2) * 5000 + (y 0).val, by have := idx2_lt0 y; omega⟩ ⟨(y 1).val, idx2_lt1 y⟩ := by
    funext a; apply Fin.ext
    match a with
    | ⟨0, _⟩ => show win0_0.index t (0 : Fin 2) * 5000 + 1 * (y 0).val = win0_3.index t (0 : Fin 2) * 5000 + (y 0).val; omega
    | ⟨1, _⟩ => show win0_0.index t (1 : Fin 2) * 128 + 1 * (y 1).val = (y 1).val; omega
  rw [h]

/-- The aggregated-feature window's block at point `t` is row block `t` of its array. -/
theorem blk1_eq (c : Dev nD) (t : Fin cfg0.N) :
    (iblk0 V c 1 t : S5000x128.Idx → EReal) = rowBlock 5000 (win0_3.index t (0 : Fin 2)) (blk_le t) (V c main_v22) := by
  obtain ⟨e0, e1, e2, e3, e4, e5, e6, e7⟩ := idx_facts t
  funext y
  show V c main_v22 (((cfg0.win 1).blk t).view.emb y)
    = V c main_v22 (ix2 ⟨win0_3.index t (0 : Fin 2) * 5000 + (y 0).val, _⟩ ⟨(y 1).val, idx2_lt1 y⟩)
  have h : ((cfg0.win 1).blk t).view.emb y
      = ix2 ⟨win0_3.index t (0 : Fin 2) * 5000 + (y 0).val, by have := idx2_lt0 y; omega⟩ ⟨(y 1).val, idx2_lt1 y⟩ := by
    funext a; apply Fin.ext
    match a with
    | ⟨0, _⟩ => show win0_1.index t (0 : Fin 2) * 5000 + 1 * (y 0).val = win0_3.index t (0 : Fin 2) * 5000 + (y 0).val; omega
    | ⟨1, _⟩ => show win0_1.index t (1 : Fin 2) * 128 + 1 * (y 1).val = (y 1).val; omega
  rw [h]

/-- The weight window's block at every point is the whole weight. -/
theorem blk2_eq (c : Dev nD) (t : Fin cfg0.N) : (iblk0 V c 2 t : S256x128.Idx → EReal) = V c main_arg3 := by
  obtain ⟨e0, e1, e2, e3, e4, e5, e6, e7⟩ := idx_facts t
  funext y
  show V c main_arg3 (((cfg0.win 2).blk t).view.emb y) = V c main_arg3 y
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  rw [h]

/-- Reading the output window's block at point `t` off any contents of its array takes row block `t`. -/
theorem outblk_eq (c : Dev nD) (t : Fin cfg0.N) (G : S100000x128.Idx → EReal) :
    (((cfg0.win 3).blk t).view.read (Elt Ideal) G : S5000x128.Idx → EReal)
      = rowBlock 5000 (win0_3.index t (0 : Fin 2)) (blk_le t) G := by
  obtain ⟨e0, e1, e2, e3, e4, e5, e6, e7⟩ := idx_facts t
  funext y
  show G (((cfg0.win 3).blk t).view.emb y)
    = G (ix2 ⟨win0_3.index t (0 : Fin 2) * 5000 + (y 0).val, _⟩ ⟨(y 1).val, idx2_lt1 y⟩)
  have h : ((cfg0.win 3).blk t).view.emb y
      = ix2 ⟨win0_3.index t (0 : Fin 2) * 5000 + (y 0).val, by have := idx2_lt0 y; omega⟩ ⟨(y 1).val, idx2_lt1 y⟩ := by
    funext a; apply Fin.ext
    match a with
    | ⟨0, _⟩ => show win0_3.index t (0 : Fin 2) * 5000 + 1 * (y 0).val = win0_3.index t (0 : Fin 2) * 5000 + (y 0).val; omega
    | ⟨1, _⟩ => show win0_3.index t (1 : Fin 2) * 128 + 1 * (y 1).val = (y 1).val; omega
  rw [h]

/-- The product the region computes, of the arrays as it finds them. -/
abbrev G (c : Dev nD) : S100000x128.Idx → EReal :=
  rowsProduct (besideCols (rfl : 128 + 128 = 256) (V c main_arg0) (V c main_v22)) (V c main_arg3)

/-- What point `t` writes back is row block `t` of the product. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S256x128) hz]
  rw [pay_eq]
  show rowsProduct (besideCols (rfl : 128 + 128 = 256) (iblk0 V c 0 t : S5000x128.Idx → EReal) (iblk0 V c 1 t : S5000x128.Idx → EReal))
      (iblk0 V c 2 t : S256x128.Idx → EReal) = _
  rw [blk0_eq V c t, blk1_eq V c t, blk2_eq V c t, ← rowBlock_besideCols, ← rowBlock_rowsProduct]
  exact (outblk_eq c t (G V c)).symm

/-- An index of the output array is in point `t`'s block iff each coordinate is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Every index is in the block of the point whose row block holds its row. -/
theorem cover (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the region: the product of the arrays the region was entered with. -/
theorem arr_eq (c : Dev nD) : (dat0 V c).arrAt 3 cfg0.N = G V c :=
  (dat0 V c).arrAt_eq_of_cover 3 (G V c) (fun t _ => flushed_eq V c t) (cover)

end Cert.KernelIdeal.MainProduct

end
-- ==== Proof.IdProduct.lean ====
/-
  What the second region leaves in its output array. Grid point `t` loads rows `2000·t, …, 2000·t + 1999` of the
  10000×256 matrix of gathered rows and the whole 256×128 correction weight, multiplies them (the change of float
  format is the identity over the extended reals, the product into the zero accumulator the plain sum over the 256
  columns) and writes the 2000×128 result back as row block `t` of the output. The five row blocks tile the 10000
  rows, so the output array ends holding the product of the two arrays the region was entered with.
-/
import proofs.«113289_j36000415875687_1_alg».proof.Proof.Gen.KernelIdeal.Frame
import proofs.«113289_j36000415875687_1_alg».proof.Proof.LibRowsProduct
import proofs.«113289_j36000415875687_1_alg».proof.Proof.LibRowBlocks
import Idealize.ShloMosaic.Lib.Pipeline.Value
import Idealize.ShloMosaic.Lib.ValueIdx
import Idealize.ShloMosaic.PureOps.Ideal.Laws

set_option maxRecDepth 16384

noncomputable section

namespace Cert.KernelIdeal.IdProduct

open Cert.KernelIdeal Cert.KernelIdeal.Gen Cert.LibRowsProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value: the loaded row block times the loaded weight. -/
theorem pay_eq (x0 : Vec Ideal S2000x256 .f32) (w : Vec Ideal S256x128 .f32) :
    k1_pay1 (F := Ideal) x0 w = rowsProduct x0 w := by
  unfold k1_pay1
  show FloatOps.matmul (F := Ideal) (φ₁ := .bf16) (φ₂ := .bf16) (DotDims.plain 2000 256 128) none
      (shapeCast S2000x256 x0 shapeCasts_S2000x256_S2000x256)
      w (constant (⟨2, ![2000, 128]⟩ : Shape) .f32 0x00000000#32) = _
  rw [shapeCast_self, matmul_plain_zero]

/-- Where each window's block sits at point `t`: the gathered-rows window and the output move together down the
    rows, the weight window stays, and no window moves along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Every row block is some point's. -/
theorem idx_onto : ∀ q : Fin 5, ∃ t : Fin cfg1.N, win1_2.index t = ![q.val, 0] :=
  (by decide +kernel : ∀ q : Fin 5, ∃ t : Fin grid1.N, win1_2.index t = ![q.val, 0])

theorem blk_le (t : Fin cfg1.N) : win1_2.index t (0 : Fin 2) * 2000 + 2000 ≤ 10000 := by
  obtain ⟨-, -, -, -, -, e5⟩ := idx_facts t
  omega

/-- The gathered-rows window's block at point `t` is row block `t` of its array. -/
theorem blk0_eq (c : Dev nD) (t : Fin cfg1.N) :
    (iblk1 V c 0 t : S2000x256.Idx → EReal) = rowBlock 2000 (win1_2.index t (0 : Fin 2)) (blk_le t) (V c main_v38) := by
  obtain ⟨e0, e1, e2, e3, e4, e5⟩ := idx_facts t
  funext y
  show V c main_v38 (((cfg1.win 0).blk t).view.emb y)
    = V c main_v38 (ix2 ⟨win1_2.index t (0 : Fin 2) * 2000 + (y 0).val, _⟩ ⟨(y 1).val, idx2_lt1 y⟩)
  have h : ((cfg1.win 0).blk t).view.emb y
      = ix2 ⟨win1_2.index t (0 : Fin 2) * 2000 + (y 0).val, by have := idx2_lt0 y; omega⟩ ⟨(y 1).val, idx2_lt1 y⟩ := by
    funext a; apply Fin.ext
    match a with
    | ⟨0, _⟩ => show win1_0.index t (0 : Fin 2) * 2000 + 1 * (y 0).val = win1_2.index t (0 : Fin 2) * 2000 + (y 0).val; omega
    | ⟨1, _⟩ => show win1_0.index t (1 : Fin 2) * 256 + 1 * (y 1).val = (y 1).val; omega
  rw [h]

/-- The weight window's block at every point is the whole weight. -/
theorem blk1_eq (c : Dev nD) (t : Fin cfg1.N) : (iblk1 V c 1 t : S256x128.Idx → EReal) = V c main_arg4 := by
  obtain ⟨e0, e1, e2, e3, e4, e5⟩ := idx_facts t
  funext y
  show V c main_arg4 (((cfg1.win 1).blk t).view.emb y) = V c main_arg4 y
  have h : ((cfg1.win 1).blk t).view.emb y = y := by
    funext a; apply Fin.ext
    match a with
    | ⟨0, _⟩ => show win1_1.index t (0 : Fin 2) * 256 + 1 * (y 0).val = (y 0).val; omega
    | ⟨1, _⟩ => show win1_1.index t (1 : Fin 2) * 128 + 1 * (y 1).val = (y 1).val; omega
  rw [h]

/-- Reading the output window's block at point `t` off any contents of its array takes row block `t`. -/
theorem outblk_eq (c : Dev nD) (t : Fin cfg1.N) (G : S10000x128.Idx → EReal) :
    (((cfg1.win 2).blk t).view.read (Elt Ideal) G : S2000x128.Idx → EReal)
      = rowBlock 2000 (win1_2.index t (0 : Fin 2)) (blk_le t) G := by
  obtain ⟨e0, e1, e2, e3, e4, e5⟩ := idx_facts t
  funext y
  show G (((cfg1.win 2).blk t).view.emb y)
    = G (ix2 ⟨win1_2.index t (0 : Fin 2) * 2000 + (y 0).val, _⟩ ⟨(y 1).val, idx2_lt1 y⟩)
  have h : ((cfg1.win 2).blk t).view.emb y
      = ix2 ⟨win1_2.index t (0 : Fin 2) * 2000 + (y 0).val, by have := idx2_lt0 y; omega⟩ ⟨(y 1).val, idx2_lt1 y⟩ := by
    funext a; apply Fin.ext
    match a with
    | ⟨0, _⟩ => show win1_2.index t (0 : Fin 2) * 2000 + 1 * (y 0).val = win1_2.index t (0 : Fin 2) * 2000 + (y 0).val; omega
    | ⟨1, _⟩ => show win1_2.index t (1 : Fin 2) * 128 + 1 * (y 1).val = (y 1).val; omega
  rw [h]

/-- The product the region computes, of the arrays as it finds them. -/
abbrev G (c : Dev nD) : S10000x128.Idx → EReal := rowsProduct (V c main_v38) (V c main_arg4)

/-- What point `t` writes back is row block `t` of the product. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  rw [pay_eq]
  show rowsProduct (iblk1 V c 0 t : S2000x256.Idx → EReal) (iblk1 V c 1 t : S256x128.Idx → EReal) = _
  rw [blk0_eq V c t, blk1_eq V c t, ← rowBlock_rowsProduct]
  exact (outblk_eq c t (G V c)).symm

/-- An index of the output array is in point `t`'s block iff each coordinate is in the block's range. -/
theorem mem_blk (t : Fin cfg1.N) (i : S10000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v39).slice (win1_2.rect t)).set ↔ _
  rw [View.set_slice_whole, Rect.mem_set_unit]
  exact Iff.rfl

/-- Every index is in the block of the point whose row block holds its row. -/
theorem cover (i : S10000x128.Idx) : ∃ t : Fin cfg1.N, (cfg1.win 2).flush t = true ∧ i ∈ ((cfg1.win 2).blk t).view.set := by
  have hi0 : (i 0).val < 10000 := idx2_lt0 i
  have hi1 : (i 1).val < 128 := idx2_lt1 i
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE OUTPUT ARRAY after the region: the product of the arrays the region was entered with. -/
theorem arr_eq (c : Dev nD) : (dat1 V c).arrAt 2 cfg1.N = G V c :=
  (dat1 V c).arrAt_eq_of_cover 2 (G V c) (fun t _ => flushed_eq V c t) (cover)

end Cert.KernelIdeal.IdProduct

end
-- ==== Proof.RefClosed.lean ====
/-
  The reference's result in closed form. With `aggr` the mean-aggregated features (the stage the reference names
  `val_main_v22`, a function of the node features and the edge list that this proof never opens) and `h = [x ‖ aggr]`
  the 100000×256 matrix of each node's own and aggregated features side by side, the reference returns

      scatter-add of  h[list] · W_id  onto  h · W  at the rows the list names,

  where row p of `h[list]` is row `list p` of h, the word clamped into the node range. The host's dot_general over
  the extended reals is the plain product; the concatenation is the two matrices side by side; the gather of whole
  rows picks the rows, and picking rows of `[x ‖ aggr]` is `[x[list] ‖ aggr[list]]`.
-/
import proofs.«113289_j36000415875687_1_alg».proof.Proof.Gen.ReferenceIdeal.Read
import proofs.«113289_j36000415875687_1_alg».proof.Proof.LibRowsProduct

noncomputable section

namespace Cert.ReferenceIdeal.Closed

open Cert.ReferenceIdeal Cert.ReferenceIdeal.Gen Cert.ReferenceIdeal.Read Cert.LibRowsProduct
open Idealize.ShloMosaic Idealize.ShloMosaic.TcCoe Idealize.SL.Sem

/-- There is a node. -/
theorem nodes_pos : 0 < 100000 := by decide

variable (x0 : (⟨S100000x128, .f32⟩ : BufTy).Contents (Elt Ideal)) (x1 : (⟨S2x640000, .i32⟩ : BufTy).Contents (Elt Ideal))
  (x2 : (⟨S10000, .i32⟩ : BufTy).Contents (Elt Ideal)) (x3 x4 : (⟨S256x128, .f32⟩ : BufTy).Contents (Elt Ideal))

/-- `h = [x ‖ aggr]`. -/
theorem cat_eq : val_main_v23 (F := Ideal) x0 x1
    = besideCols (rfl : 128 + 128 = 256) x0 (val_main_v22 (F := Ideal) x0 x1) := by
  unfold val_main_v23
  exact concatenate_cols (rfl : 128 + 128 = 256) x0 (val_main_v22 (F := Ideal) x0 x1) _

/-- `h · W`. -/
theorem main_eq : val_main_v24 (F := Ideal) x0 x1 x3
    = rowsProduct (besideCols (rfl : 128 + 128 = 256) x0 (val_main_v22 (F := Ideal) x0 x1)) x3 := by
  unfold val_main_v24
  rw [cat_eq]
  exact dotGeneral_plain (R := 100000) (K := 256) (N := 128) none _ _

/-- `h[list] = [x[list] ‖ aggr[list]]`. -/
theorem picked_eq : val_main_v31 (F := Ideal) x0 x1 x2
    = besideCols (rfl : 128 + 128 = 256) (pickRows nodes_pos x0 (val_main_v30 (F := Ideal) x2))
        (pickRows nodes_pos (val_main_v22 (F := Ideal) x0 x1) (val_main_v30 (F := Ideal) x2)) := by
  unfold val_main_v31
  rw [cat_eq]
  exact (gather_rows nodes_pos gather_S100000x256_S10000x1_S10000x256_1_0_n_n_0_1_1256_wf _ _).trans
    (pickRows_besideCols nodes_pos (rfl : 128 + 128 = 256) _ _ _)

/-- `h[list] · W_id`. -/
theorem corr_eq : val_main_v32 (F := Ideal) x0 x1 x2 x4
    = rowsProduct (besideCols (rfl : 128 + 128 = 256) (pickRows nodes_pos x0 (val_main_v30 (F := Ideal) x2))
        (pickRows nodes_pos (val_main_v22 (F := Ideal) x0 x1) (val_main_v30 (F := Ideal) x2))) x4 := by
  unfold val_main_v32
  rw [picked_eq]
  exact dotGeneral_plain (R := 10000) (K := 256) (N := 128) none _ _

/-- The closed form of the result, as a function of the five arguments. -/
def closed : FVec Ideal S100000x128 .f32 :=
  Host.scatterAdd (F := Ideal) (φ := .f32) scatter_S100000x128_S10000x1_S10000x128_1_0_0_1
    (rowsProduct (besideCols (rfl : 128 + 128 = 256) x0 (val_main_v22 (F := Ideal) x0 x1)) x3)
    (val_main_v38 (F := Ideal) x2)
    (rowsProduct (besideCols (rfl : 128 + 128 = 256) (pickRows nodes_pos x0 (val_main_v30 (F := Ideal) x2))
        (pickRows nodes_pos (val_main_v22 (F := Ideal) x0 x1) (val_main_v30 (F := Ideal) x2))) x4)

/-- The reference's last stage is the closed form. -/
theorem result_eq : val_main_v39 (F := Ideal) x0 x1 x2 x3 x4 = closed x0 x1 x2 x3 x4 := by
  unfold val_main_v39 closed
  rw [main_eq, corr_eq]

end Cert.ReferenceIdeal.Closed

end
-- ==== Proof.KernelFold.lean ====
/-
  The kernel program's result, read back through @main. The buffer contents at @main's boundaries are a fold: the
  host stretch before the first region computes the mean-aggregated features `aggr` (the same operations as the
  reference's, so the same function of the node features and the edge list); the first region leaves `[x ‖ aggr] · W`
  in its output; the stretch between the regions gathers the listed rows of `x` and of `aggr` and sets them side by
  side; the second region leaves their product with `W_id`; the last stretch scatter-adds that onto the first product
  at the listed rows. No stretch and no region writes an argument array. Read back to the launch contents, the result
  is the closed form the reference's result has.
-/
import proofs.«113289_j36000415875687_1_alg».proof.Proof.Gen.KernelIdeal.Frame
import proofs.«113289_j36000415875687_1_alg».proof.Proof.MainProduct
import proofs.«113289_j36000415875687_1_alg».proof.Proof.IdProduct
import proofs.«113289_j36000415875687_1_alg».proof.Proof.RefClosed
import Idealize.ShloMosaic.Lib.StableHlo.Run

set_option maxRecDepth 16384

noncomputable section

namespace Cert.KernelIdeal.Fold

open Cert.KernelIdeal Cert.KernelIdeal.Gen Cert.LibRowsProduct
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The kernel program's gather and concatenation, in the lemma file's words -/

/-- The kernel program's gather of whole rows of a 100000×128 matrix picks the rows. -/
theorem gather_eq {α : Type} (x : S100000x128.Idx → α) (idx : S10000x1.Idx → BitVec 32) :
    Host.gather gather_S100000x128_S10000x1_S10000x128_1_0_n_n_0_1_1128 x idx = pickRows Cert.ReferenceIdeal.Closed.nodes_pos x idx :=
  gather_rows Cert.ReferenceIdeal.Closed.nodes_pos gather_S100000x128_S10000x1_S10000x128_1_0_n_n_0_1_1128_wf x idx

/-! ## At the first region's entry (after the first host stretch) -/

theorem V1_arg0 (c : Dev nD) : V1 m ρ c main_arg0 = (m ((c : Thread nD τ).loc main_arg0)) := by
  dsimp only [V1, W1]; after_results_simp
theorem V1_arg2 (c : Dev nD) : V1 m ρ c main_arg2 = (m ((c : Thread nD τ).loc main_arg2)) := by
  dsimp only [V1, W1]; after_results_simp
theorem V1_arg3 (c : Dev nD) : V1 m ρ c main_arg3 = (m ((c : Thread nD τ).loc main_arg3)) := by
  dsimp only [V1, W1]; after_results_simp
theorem V1_arg4 (c : Dev nD) : V1 m ρ c main_arg4 = (m ((c : Thread nD τ).loc main_arg4)) := by
  dsimp only [V1, W1]; after_results_simp
/-- The aggregated features: the kernel program's first stretch is the reference's first twenty-nine operations. -/
theorem V1_aggr (c : Dev nD) : V1 m ρ c main_v22 = (Cert.ReferenceIdeal.Read.val_main_v22 (F := Ideal) (m ((c : Thread nD τ).loc main_arg0)) (m ((c : Thread nD τ).loc main_arg1))) := by
  dsimp only [V1, W1]; after_results_simp; rfl

/-! ## At the first region's exit -/

theorem V2_arg0 (c : Dev nD) : V2 m ρ c main_arg0 = (m ((c : Thread nD τ).loc main_arg0)) :=
  ((W2_arr m ρ c 0).trans (((dat0 (V1 m ρ) c).arrAt_in 0 rfl _).trans (A_eq0 (V1 m ρ) c 0))).trans (V1_arg0 m ρ c)
theorem V2_aggr (c : Dev nD) : V2 m ρ c main_v22 = (Cert.ReferenceIdeal.Read.val_main_v22 (F := Ideal) (m ((c : Thread nD τ).loc main_arg0)) (m ((c : Thread nD τ).loc main_arg1))) :=
  ((W2_arr m ρ c 1).trans (((dat0 (V1 m ρ) c).arrAt_in 1 rfl _).trans (A_eq0 (V1 m ρ) c 1))).trans (V1_aggr m ρ c)
theorem V2_arg2 (c : Dev nD) : V2 m ρ c main_arg2 = (m ((c : Thread nD τ).loc main_arg2)) :=
  (W2_of_ne m ρ c main_arg2 (by decide)).trans (V1_arg2 m ρ c)
theorem V2_arg4 (c : Dev nD) : V2 m ρ c main_arg4 = (m ((c : Thread nD τ).loc main_arg4)) :=
  (W2_of_ne m ρ c main_arg4 (by decide)).trans (V1_arg4 m ρ c)
/-- The first region's output: `[x ‖ aggr] · W`. -/
theorem V2_main (c : Dev nD) : V2 m ρ c main_v23
    = rowsProduct (besideCols (rfl : 128 + 128 = 256) (m ((c : Thread nD τ).loc main_arg0)) (Cert.ReferenceIdeal.Read.val_main_v22 (F := Ideal) (m ((c : Thread nD τ).loc main_arg0)) (m ((c : Thread nD τ).loc main_arg1)))) (m ((c : Thread nD τ).loc main_arg3)) := by
  refine (W2_arr m ρ c 3).trans ((MainProduct.arr_eq (V1 m ρ) c).trans ?_)
  show rowsProduct (besideCols (rfl : 128 + 128 = 256) (V1 m ρ c main_arg0) (V1 m ρ c main_v22)) (V1 m ρ c main_arg3) = _
  rw [V1_arg0 m ρ c, V1_aggr m ρ c, V1_arg3 m ρ c]

/-! ## At the second region's entry (after the stretch between the regions) -/

theorem V3_arg2 (c : Dev nD) : V3 m ρ c main_arg2 = (m ((c : Thread nD τ).loc main_arg2)) := by
  dsimp only [V3, W3]; after_results_simp; exact V2_arg2 m ρ c
theorem V3_arg4 (c : Dev nD) : V3 m ρ c main_arg4 = (m ((c : Thread nD τ).loc main_arg4)) := by
  dsimp only [V3, W3]; after_results_simp; exact V2_arg4 m ρ c
theorem V3_main (c : Dev nD) : V3 m ρ c main_v23
    = rowsProduct (besideCols (rfl : 128 + 128 = 256) (m ((c : Thread nD τ).loc main_arg0)) (Cert.ReferenceIdeal.Read.val_main_v22 (F := Ideal) (m ((c : Thread nD τ).loc main_arg0)) (m ((c : Thread nD τ).loc main_arg1)))) (m ((c : Thread nD τ).loc main_arg3)) := by
  dsimp only [V3, W3]; after_results_simp; exact V2_main m ρ c
/-- The listed rows of `x` and of `aggr`, side by side. -/
theorem V3_picked (c : Dev nD) : V3 m ρ c main_v38
    = besideCols (rfl : 128 + 128 = 256) (pickRows Cert.ReferenceIdeal.Closed.nodes_pos (m ((c : Thread nD τ).loc main_arg0)) (Cert.ReferenceIdeal.Read.val_main_v30 (F := Ideal) (m ((c : Thread nD τ).loc main_arg2)))) (pickRows Cert.ReferenceIdeal.Closed.nodes_pos (Cert.ReferenceIdeal.Read.val_main_v22 (F := Ideal) (m ((c : Thread nD τ).loc main_arg0)) (m ((c : Thread nD τ).loc main_arg1))) (Cert.ReferenceIdeal.Read.val_main_v30 (F := Ideal) (m ((c : Thread nD τ).loc main_arg2)))) := by
  dsimp only [V3, W3]
  after_results_simp
  rw [concatenate_cols (rfl : 128 + 128 = 256)]
  after_results_simp
  rw [show W2 m ρ c (Proc.devRef .tc main_arg0) = (m ((c : Thread nD τ).loc main_arg0)) from V2_arg0 m ρ c,
    show W2 m ρ c (Proc.devRef .tc main_v22) = (Cert.ReferenceIdeal.Read.val_main_v22 (F := Ideal) (m ((c : Thread nD τ).loc main_arg0)) (m ((c : Thread nD τ).loc main_arg1))) from V2_aggr m ρ c,
    show W2 m ρ c (Proc.devRef .tc main_arg2) = (m ((c : Thread nD τ).loc main_arg2)) from V2_arg2 m ρ c]
  rw [gather_eq, gather_eq]
  rfl

/-! ## At the second region's exit -/

theorem V4_arg2 (c : Dev nD) : V4 m ρ c main_arg2 = (m ((c : Thread nD τ).loc main_arg2)) :=
  (W4_of_ne m ρ c main_arg2 (by decide)).trans (V3_arg2 m ρ c)
theorem V4_main (c : Dev nD) : V4 m ρ c main_v23
    = rowsProduct (besideCols (rfl : 128 + 128 = 256) (m ((c : Thread nD τ).loc main_arg0)) (Cert.ReferenceIdeal.Read.val_main_v22 (F := Ideal) (m ((c : Thread nD τ).loc main_arg0)) (m ((c : Thread nD τ).loc main_arg1)))) (m ((c : Thread nD τ).loc main_arg3)) :=
  (W4_of_ne m ρ c main_v23 (by decide)).trans (V3_main m ρ c)
/-- The second region's output: the gathered rows times `W_id`. -/
theorem V4_corr (c : Dev nD) : V4 m ρ c main_v39
    = rowsProduct (besideCols (rfl : 128 + 128 = 256) (pickRows Cert.ReferenceIdeal.Closed.nodes_pos (m ((c : Thread nD τ).loc main_arg0)) (Cert.ReferenceIdeal.Read.val_main_v30 (F := Ideal) (m ((c : Thread nD τ).loc main_arg2)))) (pickRows Cert.ReferenceIdeal.Closed.nodes_pos (Cert.ReferenceIdeal.Read.val_main_v22 (F := Ideal) (m ((c : Thread nD τ).loc main_arg0)) (m ((c : Thread nD τ).loc main_arg1))) (Cert.ReferenceIdeal.Read.val_main_v30 (F := Ideal) (m ((c : Thread nD τ).loc main_arg2))))) (m ((c : Thread nD τ).loc main_arg4)) := by
  refine (W4_arr m ρ c 2).trans ((IdProduct.arr_eq (V3 m ρ) c).trans ?_)
  show rowsProduct (V3 m ρ c main_v38) (V3 m ρ c main_arg4) = _
  rw [V3_picked m ρ c, V3_arg4 m ρ c]

/-! ## The result -/

/-- THE RESULT BUFFER at @main's end is the closed form of the launch contents of the five arguments. -/
theorem result (c : Dev nD) : W5 m ρ c (Proc.devRef .tc main_v46)
    = Cert.ReferenceIdeal.Closed.closed (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5]
  after_results_simp
  rw [show W4 m ρ c (Proc.devRef .tc main_v23) = _ from V4_main m ρ c,
    show W4 m ρ c (Proc.devRef .tc main_v39) = _ from V4_corr m ρ c,
    show W4 m ρ c (Proc.devRef .tc main_arg2) = (m ((c : Thread nD τ).loc main_arg2)) from V4_arg2 m ρ c]
  rfl

end Cert.KernelIdeal.Fold

end
-- ==== Proof.lean ====
/-
  A SAGE layer with an id-indexed correction, over the extended reals. With `aggr` the mean of each node's incoming
  neighbours' features (a gather along the edges, two scatter-adds and a quotient, all on the host and the same
  operations in both programs) and `h = [x ‖ aggr]`, both programs return

      h · W   with   h[list] · W_id   scatter-added at the rows the list names.

  The reference forms h, takes one 100000×256 by 256×128 product, gathers the listed rows of h and takes a second
  product. The kernel program never forms h: its first kernel sets a 5000-row block of x beside the same block of aggr
  and multiplies by W, block of rows by block of rows; on the host it gathers the listed rows of x and of aggr
  separately and sets them side by side; its second kernel multiplies that by W_id, 2000 rows at a time. The kernels
  change the float format before multiplying, which over the extended reals changes nothing, and a product read entry
  by entry is the same sum over the 256 columns whichever way its rows are blocked. Entry (r, j) of a product reads
  only row r of the left factor, so the row blocks of the product are the products of the row blocks; picking rows
  of two matrices side by side picks the rows of each. Both results are therefore one closed form of the five
  arguments (`Cert.ReferenceIdeal.Closed.closed`), and no finiteness of the inputs is used.

  The frames of the two kernel programs are the generated ones; the reference's is its generated run with the result
  dropped; the idealization rewrote nothing, so there is nothing to preserve.
-/
import proofs.«113289_j36000415875687_1_alg».proof.Defs
import proofs.«113289_j36000415875687_1_alg».proof.Proof.Gen.Kernel
import proofs.«113289_j36000415875687_1_alg».proof.Proof.Gen.Kernel.Skeleton
import proofs.«113289_j36000415875687_1_alg».proof.Proof.Gen.Kernel.Launch
import proofs.«113289_j36000415875687_1_alg».proof.Proof.Gen.Kernel.Points
import proofs.«113289_j36000415875687_1_alg».proof.Proof.Gen.Kernel.Frame
import proofs.«113289_j36000415875687_1_alg».proof.Proof.Gen.KernelIdeal
import proofs.«113289_j36000415875687_1_alg».proof.Proof.Gen.KernelIdeal.Skeleton
import proofs.«113289_j36000415875687_1_alg».proof.Proof.Gen.KernelIdeal.Launch
import proofs.«113289_j36000415875687_1_alg».proof.Proof.Gen.KernelIdeal.Points
import proofs.«113289_j36000415875687_1_alg».proof.Proof.Gen.KernelIdeal.Frame
import proofs.«113289_j36000415875687_1_alg».proof.Proof.Gen.ReferenceIdeal
import proofs.«113289_j36000415875687_1_alg».proof.Proof.Gen.ReferenceIdeal.Run
import proofs.«113289_j36000415875687_1_alg».proof.Proof.Gen.ReferenceIdeal.Read
import proofs.«113289_j36000415875687_1_alg».proof.Proof.Gen.Pre_finite_inputs
import proofs.«113289_j36000415875687_1_alg».proof.Proof.KernelRun
import proofs.«113289_j36000415875687_1_alg».proof.Proof.KernelFold
import proofs.«113289_j36000415875687_1_alg».proof.Proof.RefClosed
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the closed form of the arguments they were launched with, and the arguments agree. -/
theorem algebraic : Cert.algebraic_KernelIdeal_ReferenceIdeal := by
  intro m ρ m' ρ' _ hagree
  refine ⟨fun c => Cert.ReferenceIdeal.Closed.closed
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Fold.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.Closed.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
